-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x2048 : Shape := ⟨3, ![4, 64, 2048]⟩
abbrev S_ : Shape := ⟨0, ![]⟩

class Facts : Prop where
  bcast_S_S4x64x2048 : S_.BroadcastsInDim S4x64x2048 (![] : Fin 0 → Fin S4x64x2048.rank)
  reducesTo_S4x64x2048_S_d0_1_2 : S4x64x2048.ReducesTo [0, 1, 2] S_
  h_S_ : 0 < S_.numel

variable [Facts]

def fn {F : FTy → Type} [FloatOps F] (main_arg0 : FVec F S4x64x2048 .f32) : IVec S_ 1 :=
  let main_v0 : FVec F S4x64x2048 .f32 := Host.absf main_arg0
  let main_cst : FVec F S_ .f32 := constant S_ .f32 0x7F800000#32
  let main_v1 : FVec F S4x64x2048 .f32 := broadcastInDim S4x64x2048 ![] bcast_S_S4x64x2048 main_cst
  let main_v2 : IVec S4x64x2048 1 := cmpf .olt main_v0 main_v1
  let main_c : IVec S_ 1 := constantI S_ 1 1#1
  let main_v3 : IVec S_ 1 := (fun x v => Host.reduce IntOp.andi x v reducesTo_S4x64x2048_S_d0_1_2 h_S_) main_v2 main_c
  main_v3
-- ==== Kernel.lean ====
abbrev S4x64x2048 : Shape := ⟨3, ![4, 64, 2048]⟩
abbrev S4x2048x2048 : Shape := ⟨3, ![4, 2048, 2048]⟩
abbrev S1x64x2048 : Shape := ⟨3, ![1, 64, 2048]⟩
abbrev S1x256x2048 : Shape := ⟨3, ![1, 256, 2048]⟩
abbrev S64x2048 : Shape := ⟨2, ![64, 2048]⟩
abbrev S1x64x256 : Shape := ⟨3, ![1, 64, 256]⟩
abbrev S64x256 : Shape := ⟨2, ![64, 256]⟩
abbrev S256x2048 : Shape := ⟨2, ![256, 2048]⟩
abbrev S2048 : Shape := ⟨1, ![2048]⟩
abbrev S256 : Shape := ⟨1, ![256]⟩
abbrev S256x1 : Shape := ⟨2, ![256, 1]⟩
abbrev S1x2048 : Shape := ⟨2, ![1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x64x2048, .f32⟩
  | .hbm, ⟨1, _⟩ => ⟨S4x2048x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x256x2048, .f32⟩
  | .local _ .vmem, ⟨3, _⟩ => ⟨S1x256x2048, .f32⟩
  | _, _ => ⟨S4x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_2 : Index := 0#32
  let c0_3 : Index := 0#32
  let arg1 : BitVec 32 := BitVec.ofNat 32 (i 1).val
  let c256_i32 : BitVec 32 := 256#32
  let v2 : BitVec 32 := Scalar.muli arg1 c256_i32
  let v3 : Index := Scalar.indexCast v2
  ![0, 0, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  h_S1x64x256 : 0 < S1x64x256.numel
  shapeCasts_S1x64x256_S64x256 : S1x64x256.ShapeCasts S64x256
  reduces_S64x2048_S2048 : S64x2048.Reduces [0] S2048
  reduces_S64x256_S256 : S64x256.Reduces [0] S256
  shapeCasts_S256_S256x1 : S256.ShapeCasts S256x1
  shapeCasts_S2048_S1x2048 : S2048.ShapeCasts S1x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S64x256_S64x2048_S256x2048_0_0_1_1_n_n_wf : DotDims.WF S64x256 S64x2048 S256x2048 [0] [0] [1] [1] [] []
  hrank0 : 0 < grid0.rank
  k0_off1_inb : ∀ i : grid0.Coords, ∀ a, (k0_off1 i) a + S1x64x256.size a ≤ S1x64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x64x2048.size a
  hwx0_0 : ∀ i : grid0.Coords, EltTy.bits .f32 = 32 ∨ (Rect.block (s := S4x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x2048x2048.size a
  hwx0_1 : ∀ i : grid0.Coords, EltTy.bits .f32 = 32 ∨ (Rect.block (s := S4x2048x2048) S1x256x2048.size (cc0_transform_1 i) (hinb0_1 i)).WholeWords (EltTy.packing .f32)

variable [Facts₀]

def dot_S64x256_S64x2048_S256x2048_0_0_1_1_n_n : DotDims S64x256 S64x2048 S256x2048 where
  lhsContracting := [0]
  rhsContracting := [0]
  lhsNonContracting := [1]
  rhsNonContracting := [1]
  lhsBatch := []
  rhsBatch := []
  wf := dot_S64x256_S64x2048_S256x2048_0_0_1_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x64x2048 : Shape := ⟨3, ![4, 64, 2048]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S2048x2048 : Shape := ⟨2, ![2048, 2048]⟩
abbrev S1x2048x2048 : Shape := ⟨3, ![1, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x64x2048, .f32⟩
  | .hbm, ⟨1, _⟩ => ⟨S4x64x2048, .f32⟩
  | .hbm, ⟨2, _⟩ => ⟨S_, .f32⟩
  | .hbm, ⟨3, _⟩ => ⟨S4x2048, .f32⟩
  | .hbm, ⟨4, _⟩ => ⟨S4x2048, .f32⟩
  | .hbm, ⟨5, _⟩ => ⟨S4x2048x2048, .f32⟩
  | .hbm, ⟨6, _⟩ => ⟨S4x2048x1, .f32⟩
  | .hbm, ⟨7, _⟩ => ⟨S4x1x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x2048x2048, .i1⟩
  | .hbm, ⟨22, _⟩ => ⟨S_, .f32⟩
  | .hbm, ⟨23, _⟩ => ⟨S4x2048x2048, .i1⟩
  | .hbm, ⟨24, _⟩ => ⟨S4x2048x2048, .f32⟩
  | .hbm, ⟨25, _⟩ => ⟨S4x2048x2048, .f32⟩
  | _, _ => ⟨S4x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S4x64x2048_S4x2048_d1 : S4x64x2048.ReducesTo [1] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  dot_S4x64x2048_S4x64x2048_S4x2048x2048_1_1_2_2_0_0_wf : DotDims.WF S4x64x2048 S4x64x2048 S4x2048x2048 [1] [1] [2] [2] [0] [0]

variable [Facts₀]

def dot_S4x64x2048_S4x64x2048_S4x2048x2048_1_1_2_2_0_0 : DotDims S4x64x2048 S4x64x2048 S4x2048x2048 where
  lhsContracting := [1]
  rhsContracting := [1]
  lhsNonContracting := [2]
  rhsNonContracting := [2]
  lhsBatch := [0]
  rhsBatch := [0]
  wf := dot_S4x64x2048_S4x64x2048_S4x2048x2048_1_1_2_2_0_0_wf

class Facts : Prop extends Facts₀ where

variable [Facts]
-- ==== Proof.Cosine.lean ====
/-
  The function both programs compute: the matrix of cosine similarities between the 2048 columns of each of the
  four 64 × 2048 slabs of `x`, with the diagonal set to one.

  For a slab `b` and columns `i`, `j`:  the inner product is `gram x b i j = ∑ₖ x[b,k,i] · x[b,k,j]`, a column's
  length is `len x b j = √(gram x b j j)`, and the entry is
      `gram x b i j / max (len x b i · len x b j) ε`           (ε the one shared single-precision literal),
  replaced by `1` where `i = j` (the test is the programs' own: equality of the two column numbers as 32-bit
  words). Everything is read on the extended reals: no law of arithmetic is needed to join the two programs, because
  each computes exactly these sums, in this order, and applies the same square root, maximum and quotient to them.
-/
import Idealize.ShloMosaic.PureOps.Ideal
import Idealize.ShloMosaic.Lib.ValueIdx

noncomputable section

namespace Cert.Cosine

open Idealize.ShloMosaic Idealize.ShloMosaic.ValueIdx

/-- The argument's shape: four slabs of 64 rows and 2048 columns. -/
abbrev SIn : Shape := ⟨3, ![4, 64, 2048]⟩
/-- The result's shape: per slab a 2048 × 2048 matrix. -/
abbrev SOut : Shape := ⟨3, ![4, 2048, 2048]⟩

/-- The inner product of columns `i` and `j` of slab `b`. -/
def gram (x : FVec Ideal SIn .f32) (b : Fin 4) (i j : Fin 2048) : EReal :=
  ∑ k : Fin 64, x (ix3 b k i) * x (ix3 b k j)

/-- The length of column `j` of slab `b`. -/
def len (x : FVec Ideal SIn .f32) (b : Fin 4) (j : Fin 2048) : EReal :=
  Ideal.sqrt (gram x b j j)

/-- The diagonal test, as both programs make it: the two column numbers compared as 32-bit words. -/
def onDiag (i j : Fin 2048) : BitVec 1 :=
  IntOp.cmpi .eq (BitVec.ofNat 32 i.val) (BitVec.ofNat 32 j.val)

/-- The cosine-similarity matrix of every slab, diagonal forced to one. -/
def cosim (x : FVec Ideal SIn .f32) : FVec Ideal SOut .f32 := fun o =>
  Scalar.select (onDiag (o 1) (o 2)) (Ideal.ofBits .f32 0x3F800000#32)
    (Ideal.div (gram x (o 0) (o 1) (o 2))
      (max (len x (o 0) (o 1) * len x (o 0) (o 2)) (Ideal.ofBits .f32 0x322BCC77#32)))

end Cert.Cosine

end
-- ==== Proof.RefValue.lean ====
/-
  The reference computes the cosine-similarity matrix.

  Read one operation at a time (the generated read-at-an-index lemmas), the reference's result at `(b, i, j)` is
  `select (i + 0 = j) 1 (dot(b,i,j) / max (√(0 + ∑ₖ x[b,k,i]²) · √(0 + ∑ₖ x[b,k,j]²)) ε)`, where `dot` is the sum over
  the 64 rows of the products of the two columns' entries. The index maps the broadcasts compose are the
  coordinates `(b, k, i)` and `(b, k, j)`; the zero the sums start from and the zero added to the row number vanish.
-/
import proofs.«143967_g29618094474071_cont_9to1_1740_3_alg».proof.Proof.Gen.ReferenceIdeal.Read
import proofs.«143967_g29618094474071_cont_9to1_1740_3_alg».proof.Proof.Cosine

noncomputable section

namespace Cert.ReferenceIdeal.RefValue

open Cert.ReferenceIdeal Cert.ReferenceIdeal.Gen Cert.ReferenceIdeal.Read Idealize.ShloMosaic Idealize.ShloMosaic.ValueIdx
open Cert.Cosine

/-- The left factor of the `dot_general` at `(b, i, j)` and row `k` is `x[b, k, i]`. -/
theorem left_idx (b : Fin 4) (i j : Fin 2048) (k : Fin 64) : lidx_main_v3 (ix3 b i j) k = ix3 b k i :=
  funext fun a => Fin.ext (by match a with | ⟨0, _⟩ => rfl | ⟨1, _⟩ => rfl | ⟨2, _⟩ => rfl)

/-- The right factor is `x[b, k, j]`. -/
theorem right_idx (b : Fin 4) (i j : Fin 2048) (k : Fin 64) : ridx_main_v3 (ix3 b i j) k = ix3 b k j :=
  funext fun a => Fin.ext (by match a with | ⟨0, _⟩ => rfl | ⟨1, _⟩ => rfl | ⟨2, _⟩ => rfl)

/-- The lengths broadcast along the columns are read at column `i`: the sum runs over `x[b, k, i]`. -/
theorem row_idx (b : Fin 4) (i j : Fin 2048) (k : Fin 64) :
    idx_main_v1 (idx_main_v4 (idx_main_v6 (ix3 b i j))) k = ix3 b k i :=
  funext fun a => Fin.ext (by match a with | ⟨0, _⟩ => rfl | ⟨1, _⟩ => rfl | ⟨2, _⟩ => rfl)

/-- The lengths broadcast along the rows are read at column `j`. -/
theorem col_idx (b : Fin 4) (i j : Fin 2048) (k : Fin 64) :
    idx_main_v1 (idx_main_v5 (idx_main_v7 (ix3 b i j))) k = ix3 b k j :=
  funext fun a => Fin.ext (by match a with | ⟨0, _⟩ => rfl | ⟨1, _⟩ => rfl | ⟨2, _⟩ => rfl)

/-- Adding the zero word changes no word. -/
theorem addi_zero (w : BitVec 32) : IntOp.addi w 0#32 = w := by
  unfold IntOp.addi; exact BitVec.add_zero w

/-- The reference's last stage is the cosine-similarity matrix of its argument. -/
theorem result_eq (x : FVec Ideal S4x64x2048 .f32) : val_main_v18 (F := Ideal) x = cosim x := by
  funext o
  obtain ⟨b, i, j, rfl⟩ : ∃ (b : Fin 4) (i j : Fin 2048), o = ix3 b i j := ⟨o 0, o 1, o 2, eq_ix3 o⟩
  simp only [val_main_v18_apply, val_main_call0_v0_apply, val_main_v17_apply, val_main_v16_apply, val_main_v15_apply,
    val_main_v12_apply, val_main_v14_apply, val_main_c_apply, val_main_v13_apply, val_main_call0_v1_apply,
    val_main_cst_1_apply, val_main_v11_apply, val_main_v3_apply, val_main_v10_apply, val_main_v8_apply,
    val_main_v6_apply, val_main_v4_apply, val_main_v7_apply, val_main_v5_apply, val_main_v2_apply, val_main_v1_apply,
    val_main_v0_apply, val_main_v9_apply, val_main_cst_0_apply, val_main_cst_apply,
    left_idx, right_idx, row_idx, col_idx, addi_zero,
    Ideal.ofBits_def, Ideal.mulf_def, Ideal.maximumf_def, Ideal.hostDivf_def, Ideal.hostUnary_sqrt_def,
    Ideal.ofBits_zero_f32, zero_add]
  rfl

end Cert.ReferenceIdeal.RefValue

end
-- ==== Proof.KernelPiece.lean ====
/-
  What one grid point leaves in the output's staging buffer.

  The body makes one store through the whole `1 × 256 × 2048` block; its value is the body's arithmetic (the
  generated payload `k0_pay1`) of two loads of the input slab: the whole `1 × 64 × 2048` slab, and the
  `1 × 64 × 256` stretch of its columns that starts at column `256 · (row tile)`. So the block's final contents are
  that payload of the slab and of the slab read through that stretch.
-/
import proofs.«143967_g29618094474071_cont_9to1_1740_3_alg».proof.Proof.Gen.KernelIdeal.Frame
import Idealize.ShloMosaic.Lib.Pipeline.Value

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

/-- The offsets of a whole-block access are all zero. -/
theorem hz3 : (![0, 0, 0] : Fin 3 → Nat) = fun _ => 0 := funext fun a => by fin_cases a <;> rfl

/-- The stretch of 256 columns of the slab that the body loads at grid coordinates `i`. -/
abbrev tileRect (i : grid0.Coords) : Rect S1x64x2048 :=
  Rect.unit (s := S1x64x2048) (k0_off1 i) S1x64x256.size (Facts₀.k0_off1_inb i)

/-- The output block after the body, on any staging memrefs, from the slab `x0` the input's buffer holds: the payload
    of the slab and of its 256-column stretch. The body's one store covers the block, and both loads read the
    slab as it is. -/
theorem out_eq (c : Dev nD) (i : grid0.Coords) (arg2 : Memref sig .tc .vmem S1x64x2048 .f32) (harg2 : arg2.IsWhole)
    (arg3 : Memref sig .tc .vmem S1x256x2048 .f32) (harg3 : arg3.IsWhole) (x0 : Vec F S1x64x2048 .f32) :
    out0_A_1 c i arg2 harg2 arg3 harg3 x0 = k0_pay1 i x0 (View.ld x0 (tileRect i)) := by
  unfold out0_A_1
  rw [View.read_writes_eq_canon _ _ _ (cover0_A_1 c i arg2 harg2 arg3 harg3 x0)]
  unfold kernelRun0_A
  dsimp only
  sl_unfold_words
  rw [View.canon_unit_zero hz3]
  simp only [View.readAt_eq_ld, harg2.read_unread, View.ld_unit_zero (S := S1x64x2048) hz3]
  rfl

end Cert.KernelIdeal.Piece

end
-- ==== Proof.LibColumn.lean ====
/-
  Two layout readings for a COLUMN kept as a trailing unit axis, at any extents:
  a vector `[a]` reshaped to the column `[a, 1]`, and a column `[a, 1]` broadcast along its unit axis to `[a, b]`.
  Each reads, at an index written by its coordinates, the operand at the row coordinate alone.
-/
import Idealize.ShloMosaic.Lib.ValueIdx
import Idealize.ShloMosaic.Lib.Pipeline.Value

noncomputable section

namespace Idealize.ShloMosaic.ValueIdx

variable {α : Type}

/-- An `[a]` array cast to the column `[a, 1]` reads, at `(i, u)`, the operand at `i`, whatever the unit coordinate `u`:
    the two indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KernelPayload.lean ====
/-
  The body's arithmetic, read at one entry of the output block.

  At row `r` of the tile and column `j`, from the slab `x0` (`1 × 64 × 2048`) and its 256-column stretch `x4`
  (`1 × 64 × 256`), the body's value is
      `select (256·tile + r = j) 1 ((∑ₖ x4[k,r] · x0[k,j]) / max (√(∑ₖ x4[k,r]²) · √(∑ₖ x0[k,j]²)) ε)`:
  the matrix product into a zero accumulator is the sum over the 64 rows of the products; each lane reduction over
  the row axis is the sum of the squares down a column; the two square roots reach the entry through a column
  reshaped and broadcast along the row, and a row reshaped and broadcast down the column; the diagonal test compares
  the global row number, `256·tile` plus the row's own number, with the column number.
-/
import proofs.«143967_g29618094474071_cont_9to1_1740_3_alg».proof.Proof.Gen.KernelIdeal.Skeleton
import proofs.«143967_g29618094474071_cont_9to1_1740_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The matrix product at an entry -/

/-- The left operand is contracted on its axis 0: there it reads the contraction position. -/
theorem lhs_dot_0 (i : S256x2048.Idx) (q : dot_S64x256_S64x2048_S256x2048_0_0_1_1_n_n.contr.Idx) :
    (dot_S64x256_S64x2048_S256x2048_0_0_1_1_n_n.lhsIdx i q 0).val = (q ⟨0, by decide⟩).val :=
  dot_S64x256_S64x2048_S256x2048_0_0_1_1_n_n.lhsIdx_val_of_single rfl i q

/-- The left operand's axis 1 is the result's row. -/
theorem lhs_dot_1 (i : S256x2048.Idx) (q : dot_S64x256_S64x2048_S256x2048_0_0_1_1_n_n.contr.Idx) :
    (dot_S64x256_S64x2048_S256x2048_0_0_1_1_n_n.lhsIdx i q 1).val = (i 0).val := by
  unfold DotDims.lhsIdx
  rw [dif_neg (show ¬(1 : Fin S64x256.rank) ∈ dot_S64x256_S64x2048_S256x2048_0_0_1_1_n_n.lhsBatch by decide), dif_pos (show (1 : Fin S64x256.rank) ∈ dot_S64x256_S64x2048_S256x2048_0_0_1_1_n_n.lhsNonContracting by decide)]
  rfl

/-- The right operand is contracted on its axis 0. -/
theorem rhs_dot_0 (i : S256x2048.Idx) (q : dot_S64x256_S64x2048_S256x2048_0_0_1_1_n_n.contr.Idx) :
    (dot_S64x256_S64x2048_S256x2048_0_0_1_1_n_n.rhsIdx i q 0).val = (q ⟨0, by decide⟩).val :=
  dot_S64x256_S64x2048_S256x2048_0_0_1_1_n_n.rhsIdx_val_of_single rfl i q

/-- The right operand's axis 1 is the result's column. -/
theorem rhs_dot_1 (i : S256x2048.Idx) (q : dot_S64x256_S64x2048_S256x2048_0_0_1_1_n_n.contr.Idx) :
    (dot_S64x256_S64x2048_S256x2048_0_0_1_1_n_n.rhsIdx i q 1).val = (i 1).val := by
  unfold DotDims.rhsIdx
  rw [dif_neg (show ¬(1 : Fin S64x2048.rank) ∈ dot_S64x256_S64x2048_S256x2048_0_0_1_1_n_n.rhsBatch by decide), dif_pos (show (1 : Fin S64x2048.rank) ∈ dot_S64x256_S64x2048_S256x2048_0_0_1_1_n_n.rhsNonContracting by decide)]
  rfl

/-- The product of the transposed tile with the slab, into zeros, at `(r, j)`: the sum over the 64 rows of the
    tile's entry in column `r` times the slab's entry in column `j`. -/
theorem matmul_at (l : FVec Ideal S64x256 .f32) (rr : FVec Ideal S64x2048 .f32) (r : Fin 256) (j : Fin 2048) :
    matmul dot_S64x256_S64x2048_S256x2048_0_0_1_1_n_n none l rr (constant (F := Ideal) S256x2048 .f32 0x00000000#32) (ix2 r j)
      = ∑ k : Fin 64, l (ix2 k r) * rr (ix2 k j) := by
  simp only [matmul]
  rw [Ideal.matmul_constant_zero_apply, ← Equiv.sum_comp (contrEquiv1 dot_S64x256_S64x2048_S256x2048_0_0_1_1_n_n 64 rfl rfl).symm]
  refine Finset.sum_congr rfl fun k _ => ?_
  have hk := contrEquiv1_symm_val dot_S64x256_S64x2048_S256x2048_0_0_1_1_n_n 64 rfl rfl k
  have el : dot_S64x256_S64x2048_S256x2048_0_0_1_1_n_n.lhsIdx (ix2 r j) ((contrEquiv1 dot_S64x256_S64x2048_S256x2048_0_0_1_1_n_n 64 rfl rfl).symm k) = ix2 k r := funext fun a => Fin.ext (by
    match a with
    | ⟨0, _⟩ => exact (lhs_dot_0 _ _).trans hk
    | ⟨1, _⟩ => exact lhs_dot_1 _ _)
  have er : dot_S64x256_S64x2048_S256x2048_0_0_1_1_n_n.rhsIdx (ix2 r j) ((contrEquiv1 dot_S64x256_S64x2048_S256x2048_0_0_1_1_n_n 64 rfl rfl).symm k) = ix2 k j := funext fun a => Fin.ext (by
    match a with
    | ⟨0, _⟩ => exact (rhs_dot_0 _ _).trans hk
    | ⟨1, _⟩ => exact rhs_dot_1 _ _)
  rw [el, er]

/-! ## The sums down a column -/

/-- The reduction of a `64 × 2048` array over its rows, at column `j`: the sum of the column. -/
theorem colsum_slab (v : FVec Ideal S64x2048 .f32) (h : S64x2048.Reduces [0] S2048) (hφ : FTy.f32 = FTy.f32 ∨ FTy.f32 = FTy.bf16)
    (hacc : (0x00000000#32 : BitVec 32) = 0x00000000#32) (j : Fin 2048) :
    multiReduction .add [0] S2048 v 0x00000000#32 h hφ hacc (ix1 j) = ∑ k : Fin 64, v (ix2 k j) := by
  refine (Ideal.multiReduction_add_single v 0x00000000#32 h hφ hacc (ix1 j)).trans ?_
  exact Finset.sum_congr rfl fun k _ => congrArg v (funext fun a => Fin.ext (by match a with | ⟨0, _⟩ => rfl | ⟨1, _⟩ => rfl))

/-- The same for the `64 × 256` tile, at its column `r`. -/
theorem colsum_tile (v : FVec Ideal S64x256 .f32) (h : S64x256.Reduces [0] S256) (hφ : FTy.f32 = FTy.f32 ∨ FTy.f32 = FTy.bf16)
    (hacc : (0x00000000#32 : BitVec 32) = 0x00000000#32) (r : Fin 256) :
    multiReduction .add [0] S256 v 0x00000000#32 h hφ hacc (ix1 r) = ∑ k : Fin 64, v (ix2 k r) := by
  refine (Ideal.multiReduction_add_single v 0x00000000#32 h hφ hacc (ix1 r)).trans ?_
  exact Finset.sum_congr rfl fun k _ => congrArg v (funext fun a => Fin.ext (by match a with | ⟨0, _⟩ => rfl | ⟨1, _⟩ => rfl))

/-! ## The row and column numbers -/

/-- The row counter at `(r, j)` is `r`. -/
theorem iota_row (h : S256x2048.Iotas .tc 32 [0]) (r : Fin 256) (j : Fin 2048) :
    iota .tc S256x2048 32 [0] h (ix2 r j) = BitVec.ofNat 32 r.val := by
  show BitVec.ofNat 32 (0 * 256 + r.val) = _
  rw [Nat.zero_mul, Nat.zero_add]

/-- The column counter at `(r, j)` is `j`. -/
theorem iota_col (h : S256x2048.Iotas .tc 32 [1]) (r : Fin 256) (j : Fin 2048) :
    iota .tc S256x2048 32 [1] h (ix2 r j) = BitVec.ofNat 32 j.val := by
  show BitVec.ofNat 32 (0 * 2048 + j.val) = _
  rw [Nat.zero_mul, Nat.zero_add]

/-! ## Pointwise operations at an entry -/

theorem cmpi_at {s : Shape} {w : Nat} (p : CmpIPredicate) (a b : IVec s w) (i : s.Idx) :
    cmpi p a b i = IntOp.cmpi p (a i) (b i) := rfl

theorem addi_at {s : Shape} {w : Nat} (a b : IVec s w) (i : s.Idx) : addi a b i = IntOp.addi (a i) (b i) := rfl

theorem sqrt_at {s : Shape} {φ : FTy} (a : FVec Ideal s φ) (i : s.Idx) : sqrt a i = Ideal.sqrt (a i) := rfl

/-! ## The payload at an entry -/

/-- The body's value at row `r` of the tile and column `j`, from the slab and its stretch. -/
theorem pay_apply (i : grid0.Coords) (x0 : FVec Ideal S1x64x2048 .f32) (x4 : FVec Ideal S1x64x256 .f32)
    (u : Fin 1) (r : Fin 256) (j : Fin 2048) :
    k0_pay1 (F := Ideal) i x0 x4 (ix3 u r j)
      = Scalar.select
          (IntOp.cmpi .eq (IntOp.addi (Scalar.muli (BitVec.ofNat 32 (i 1).val) 256#32) (BitVec.ofNat 32 r.val)) (BitVec.ofNat 32 j.val))
          (Ideal.ofBits .f32 0x3F800000#32)
          (Ideal.div (∑ k : Fin 64, x4 (ix3 (0 : Fin 1) k r) * x0 (ix3 (0 : Fin 1) k j))
            (max (Ideal.sqrt (∑ k : Fin 64, x4 (ix3 (0 : Fin 1) k r) * x4 (ix3 (0 : Fin 1) k r))
                * Ideal.sqrt (∑ k : Fin 64, x0 (ix3 (0 : Fin 1) k j) * x0 (ix3 (0 : Fin 1) k j)))
              (Ideal.ofBits .f32 0x322BCC77#32))) := by
  unfold k0_pay1
  dsimp only
  refine (shapeCast_ab_1ab_apply _ _ u r j).trans ?_
  simp only [select_apply, cmpi_at, addi_at, sqrt_at, broadcast_apply, iota_row, iota_col, divf_apply, maximumf_apply,
    mulf_apply, matmul_at, broadcastTo_a1_ab_apply, shapeCast_a_a1_apply, broadcastTo_1b_ab_apply, shapeCast_a_1a_apply,
    colsum_slab, colsum_tile, shapeCast_1ab_ab_apply, Ideal.ofBits_def]
  rw [iota_row, iota_col, colsum_tile, colsum_slab]
  simp only [mulf_apply, shapeCast_1ab_ab_apply]

end Cert.KernelIdeal.Payload

end
-- ==== Proof.KernelValue.lean ====
/-
  The kernel's result array is the cosine-similarity matrix of its argument.

  The grid has 4 × 8 points: point `t` works on slab `b` and row tile `ti`, and writes back the block of rows
  `256·ti … 256·ti + 255` of slab `b` of the result. Its input window stages the whole slab `b` (`slab_apply`); the
  body's second load reads the slab's columns `256·ti … 256·ti + 255` (`tile_apply`); and the global row number the
  body compares with the column number is `256·ti + r` as a 32-bit word (`row_word`). With the body's value at an
  entry (Proof/KernelPayload.lean) this makes the block a point stores the matching block of the specification
  (`point_value`, `flushed_eq`). The 32 blocks cover the result array — index `(b, i, j)` lies in the block of
  slab `b`, tile `i / 256` — so the array ends holding the specification everywhere (`final`, `run`).
-/
import proofs.«143967_g29618094474071_cont_9to1_1740_3_alg».proof.Proof.Gen.KernelIdeal.Value
import proofs.«143967_g29618094474071_cont_9to1_1740_3_alg».proof.Proof.KernelPiece
import proofs.«143967_g29618094474071_cont_9to1_1740_3_alg».proof.Proof.KernelPayload
import proofs.«143967_g29618094474071_cont_9to1_1740_3_alg».proof.Proof.Cosine

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.Cosine

variable (m : (ℓ : Loc nD τ sig) → Buf (Elt Ideal) ℓ) (ρ : Dev nD → PrngReg)

/-- The argument array as the region finds it. -/
abbrev xarr (c : Dev nD) : FVec Ideal S4x64x2048 .f32 := V m c main_arg0

/-- The slab the input window stages at point `t`. -/
abbrev slab (c : Dev nD) (t : Fin cfg0.N) : FVec Ideal S1x64x2048 .f32 := iblk m c 0 t

/-- The printed index maps, decided over the 32 grid points. -/
theorem idx_facts : ∀ t : Fin cfg0.N,
    win0_0.index t (0 : Fin 3) = win0_1.index t (0 : Fin 3) ∧ win0_0.index t (1 : Fin 3) = 0 ∧ win0_0.index t (2 : Fin 3) = 0
    ∧ win0_1.index t (2 : Fin 3) = 0 ∧ win0_1.index t (0 : Fin 3) ≤ 3 ∧ win0_1.index t (1 : Fin 3) ≤ 7
    ∧ (grid0.coords t (1 : Fin 2)).val = win0_1.index t (1 : Fin 3) :=
  (by decide +kernel : ∀ t : Fin grid0.N, _)

/-- Every (slab, row tile) pair is some point's output block. -/
theorem idx_onto : ∀ (q0 : Fin 4) (q1 : Fin 8), ∃ t : Fin cfg0.N, win0_1.index t = ![q0.val, q1.val, 0] :=
  (by decide +kernel : ∀ (q0 : Fin 4) (q1 : Fin 8), ∃ t : Fin grid0.N, win0_1.index t = ![q0.val, q1.val, 0])

/-- The staged slab at point `t` is slab `win0_1.index t 0` of the argument. -/
theorem slab_apply (c : Dev nD) (t : Fin cfg0.N) (b : Fin 4) (hb : b.val = win0_1.index t (0 : Fin 3))
    (u : Fin 1) (k : Fin 64) (j : Fin 2048) :
    slab m c t (ix3 u k j) = xarr m c (ix3 b k j) := by
  obtain ⟨e0, e1, e2, -⟩ := idx_facts t
  unfold slab iblk
  rw [View.read_apply]
  show V m c main_arg0 _ = V m c main_arg0 _
  congr 1
  funext a
  apply Fin.ext
  match a with
  | ⟨0, _⟩ => show win0_0.index t (0 : Fin 3) * 1 + 1 * u.val = b.val; have := u.isLt; omega
  | ⟨1, _⟩ => show win0_0.index t (1 : Fin 3) * 64 + 1 * k.val = k.val; omega
  | ⟨2, _⟩ => show win0_0.index t (2 : Fin 3) * 2048 + 1 * j.val = j.val; omega

/-- The stretch the body loads at grid coordinates `i` starts at column `256 · i₁` of the slab. -/
theorem tile_apply (i : grid0.Coords) (x0 : FVec Ideal S1x64x2048 .f32) (u : Fin 1) (k : Fin 64) (r : Fin 256)
    (h : 256 * (i 1).val + r.val < 2048) :
    (View.ld (Val := Elt Ideal) (e' := EltTy.f32) x0 (Piece.tileRect i) : FVec Ideal S1x64x256 .f32) (ix3 u k r)
      = x0 (ix3 u k ⟨256 * (i 1).val + r.val, h⟩) := by
  show x0 ((Piece.tileRect i).idx (ix3 u k r)) = _
  congr 1
  funext a
  apply Fin.ext
  have ho := k0_off1_eq i
  match a with
  | ⟨0, _⟩ => show k0_off1 i (0 : Fin 3) + 1 * u.val = u.val; rw [ho]; show 0 + 1 * u.val = u.val; omega
  | ⟨1, _⟩ => show k0_off1 i (1 : Fin 3) + 1 * k.val = k.val; rw [ho]; show 0 + 1 * k.val = k.val; omega
  | ⟨2, _⟩ => show k0_off1 i (2 : Fin 3) + 1 * r.val = 256 * (i 1).val + r.val; rw [ho]; show 256 * (i 1).val + 1 * r.val = _; omega

/-- The global row number as the body computes it, in 32-bit words: `256 · tile + r`. -/
theorem row_word (a r : Nat) :
    IntOp.addi (Scalar.muli (BitVec.ofNat 32 a) 256#32) (BitVec.ofNat 32 r) = BitVec.ofNat 32 (256 * a + r) := by
  show BitVec.ofNat 32 a * BitVec.ofNat 32 256 + BitVec.ofNat 32 r = _
  rw [← BitVec.ofNat_mul, ← BitVec.ofNat_add, Nat.mul_comm]

/-- ONE POINT'S BLOCK: at grid coordinates `i` with row tile `ti`, from a slab that is slab `b` of the array `X`, the
    body's value at row `r` of the tile and column `j` is the cosine-similarity matrix of `X` at `(b, 256·ti + r, j)`. -/
theorem point_value (i : grid0.Coords) (X : FVec Ideal SIn .f32) (x0 : FVec Ideal S1x64x2048 .f32) (b : Fin 4) (ti : Fin 8)
    (hi : (i 1).val = ti.val)
    (hx : ∀ (u : Fin 1) (k : Fin 64) (j : Fin 2048), x0 (ix3 u k j) = X (ix3 b k j))
    (u : Fin 1) (r : Fin 256) (j : Fin 2048) :
    k0_pay1 (F := Ideal) i x0 (View.ld (Val := Elt Ideal) (e' := EltTy.f32) x0 (Piece.tileRect i)) (ix3 u r j)
      = cosim X (ix3 b ⟨256 * ti.val + r.val, by have := ti.isLt; have := r.isLt; omega⟩ j) := by
  have hlt : 256 * (i 1).val + r.val < 2048 := by have := ti.isLt; have := r.isLt; omega
  rw [Payload.pay_apply]
  simp only [tile_apply i x0 _ _ r hlt, hx, row_word, hi]
  rfl

/-- WHAT POINT `t` WRITES BACK is block `t` of the cosine-similarity matrix of the argument. -/
theorem flushed_eq (c : Dev nD) (t : Fin cfg0.N) :
    (dats m 0 c).flushed 1 t = ((cfg0.win 1).blk t).view.read (Elt Ideal) (cosim (xarr m c)) := by
  obtain ⟨e0, e1, e2, e3, e4, e5, e6⟩ := idx_facts t
  rw [flushed1_A, Piece.out_eq]
  funext y
  show k0_pay1 (F := Ideal) (grid0.coords t) (slab m c t) (View.ld (Val := Elt Ideal) (e' := EltTy.f32) (slab m c t) (Piece.tileRect (grid0.coords t))) y
    = cosim (xarr m c) (((cfg0.win 1).blk t).view.emb y)
  have key : ∀ y' : S1x256x2048.Idx,
      k0_pay1 (F := Ideal) (grid0.coords t) (slab m c t) (View.ld (Val := Elt Ideal) (e' := EltTy.f32) (slab m c t) (Piece.tileRect (grid0.coords t))) y'
        = cosim (xarr m c) (((cfg0.win 1).blk t).view.emb y') := by
    intro y'
    obtain ⟨u, r, j, rfl⟩ : ∃ (u : Fin 1) (r : Fin 256) (j : Fin 2048), y' = ix3 u r j := ⟨y' 0, y' 1, y' 2, eq_ix3 y'⟩
    rw [point_value (grid0.coords t) (xarr m c) (slab m c t) ⟨win0_1.index t (0 : Fin 3), by omega⟩ ⟨win0_1.index t (1 : Fin 3), by omega⟩ e6
      (fun u k j => slab_apply m c t _ rfl u k j) u r j]
    congr 1
    funext a
    apply Fin.ext
    match a with
    | ⟨0, _⟩ => show win0_1.index t (0 : Fin 3) = win0_1.index t (0 : Fin 3) * 1 + 1 * u.val; have := u.isLt; omega
    | ⟨1, _⟩ => show 256 * win0_1.index t (1 : Fin 3) + r.val = win0_1.index t (1 : Fin 3) * 256 + 1 * r.val; omega
    | ⟨2, _⟩ => show j.val = win0_1.index t (2 : Fin 3) * 2048 + 1 * j.val; omega
  exact key y

/-- An index of the result array is in point `t`'s block iff each coordinate is in the block's range on its axis. -/
theorem mem_blk (t : Fin cfg0.N) (i : S4x2048x2048.Idx) :
    i ∈ ((cfg0.win 1).blk t).view.set ↔ ∀ a : Fin 3, win0_1.index t a * S1x256x2048.size a ≤ (i a).val
      ∧ (i a).val < win0_1.index t a * S1x256x2048.size a + S1x256x2048.size a := by
  show i ∈ ((View.whole main_v0).slice (win0_1.rect t)).set ↔ _
  rw [View.set_slice_whole, Rect.mem_set_unit]
  exact Iff.rfl

/-- Every index of the result array is in some point's block: slab `i₀`, row tile `i₁ / 256`. -/
theorem covered (i : S4x2048x2048.Idx) :
    ∃ t : Fin cfg0.N, (cfg0.win 1).flush t = true ∧ i ∈ ((cfg0.win 1).blk t).view.set := by
  have h0 : (i 0).val < 4 := (i 0).isLt
  have h1 : (i 1).val < 2048 := (i 1).isLt
  have h2 : (i 2).val < 2048 := (i 2).isLt
  obtain ⟨t, ht⟩ := idx_onto ⟨(i 0).val, h0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 2048 ≤ (i 2).val ∧ (i 2).val < win0_1.index t (2 : Fin 3) * 2048 + 2048; omega

/-- THE ARRAY after the run: the cosine-similarity matrix of the argument, everywhere. -/
theorem final (c : Dev nD) : (dats m 0 c).arrAt 1 cfg0.N = cosim (xarr m c) :=
  (dats m 0 c).arrAt_eq_of_cover 1 (cosim (xarr m c)) (fun t _ => flushed_eq m c t) covered

/-- The kernel's run, read: the result array at the cosine-similarity matrix of the argument, the argument unchanged. -/
theorem run : θ_run defs (onTc (τ := τ) (main (F := Ideal))) ⟨m, fun _ => 0, ρ⟩ fun r => ∀ c : Dev nD,
      r.2.mem ((c : Thread nD τ).loc main_v0) = cosim (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/-
  The certificate of a tiled cosine-similarity kernel against its array-level reference.

  Both programs take `x`, four slabs of 64 rows and 2048 columns, and produce per slab the 2048 × 2048 matrix whose
  `(i, j)` entry is the inner product of columns `i` and `j` divided by the larger of the product of their lengths
  and one small shared literal, with the diagonal set to one (Proof/Cosine.lean states this function once).
  The kernel walks a grid of (slab, row tile): a point loads the whole slab and the tile's 256 columns, multiplies the
  transposed tile by the slab, takes the sums of squares down the columns of both, and stores the 256 × 2048 block of
  rows of the answer. The reference forms the same sums for all columns at once.
  On the extended reals the two agree entry by entry with no algebra at all: the same sums in the same order, the same
  square root, maximum and quotient. What is proved by hand: the block a point stores, as a function of what it loaded
  (KernelPiece, KernelPayload); that the 32 blocks tile the result and each is the matching block of the specification
  (KernelValue); and that the reference's operations compose to the specification (RefValue).
  The idealization rewrote nothing, so `preserves` has no conjunct.
-/
import proofs.«143967_g29618094474071_cont_9to1_1740_3_alg».proof.Defs
import proofs.«143967_g29618094474071_cont_9to1_1740_3_alg».proof.Proof.Gen.Kernel
import proofs.«143967_g29618094474071_cont_9to1_1740_3_alg».proof.Proof.Gen.Kernel.Frame
import proofs.«143967_g29618094474071_cont_9to1_1740_3_alg».proof.Proof.Gen.KernelIdeal
import proofs.«143967_g29618094474071_cont_9to1_1740_3_alg».proof.Proof.Gen.KernelIdeal.Frame
import proofs.«143967_g29618094474071_cont_9to1_1740_3_alg».proof.Proof.Gen.ReferenceIdeal
import proofs.«143967_g29618094474071_cont_9to1_1740_3_alg».proof.Proof.Gen.ReferenceIdeal.Run
import proofs.«143967_g29618094474071_cont_9to1_1740_3_alg».proof.Proof.Gen.ReferenceIdeal.Read
import proofs.«143967_g29618094474071_cont_9to1_1740_3_alg».proof.Proof.Gen.Pre_finite_inputs
import proofs.«143967_g29618094474071_cont_9to1_1740_3_alg».proof.Proof.RefValue
import proofs.«143967_g29618094474071_cont_9to1_1740_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, both programs end with the cosine-similarity matrix of `x` in their result. -/
theorem algebraic : Cert.algebraic_KernelIdeal_ReferenceIdeal := by
  intro m ρ m' ρ' _ hagree
  refine ⟨fun c => Cert.Cosine.cosim (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
